-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096 : Shape := ⟨2, ![8, 4096]⟩
abbrev S1376x32x8x64 : Shape := ⟨4, ![1376, 32, 8, 64]⟩
abbrev S1376x32x8 : Shape := ⟨3, ![1376, 32, 8]⟩
abbrev S_ : Shape := ⟨0, ![]⟩

class Facts : Prop where
  bcast_S_S8x4096 : S_.BroadcastsInDim S8x4096 (![] : Fin 0 → Fin S8x4096.rank)
  reducesTo_S8x4096_S_d0_1 : S8x4096.ReducesTo [0, 1] S_
  h_S_ : 0 < S_.numel
  bcast_S_S1376x32x8 : S_.BroadcastsInDim S1376x32x8 (![] : Fin 0 → Fin S1376x32x8.rank)
  reducesTo_S1376x32x8_S_d0_1_2 : S1376x32x8.ReducesTo [0, 1, 2] S_

variable [Facts]

def fn {F : FTy → Type} [FloatOps F] (main_arg0 : FVec F S8x4096 .f32) (main_arg1 : IVec S1376x32x8x64 32) (main_arg2 : FVec F S1376x32x8 .f32) : IVec S_ 1 :=
  let main_v0 : FVec F S8x4096 .f32 := Host.absf main_arg0
  let main_cst : FVec F S_ .f32 := constant S_ .f32 0x7F800000#32
  let main_v1 : FVec F S8x4096 .f32 := broadcastInDim S8x4096 ![] bcast_S_S8x4096 main_cst
  let main_v2 : IVec S8x4096 1 := cmpf .olt main_v0 main_v1
  let main_c : IVec S_ 1 := constantI S_ 1 1#1
  let main_v3 : IVec S_ 1 := (fun x v => Host.reduce IntOp.andi x v reducesTo_S8x4096_S_d0_1 h_S_) main_v2 main_c
  let main_v4 : FVec F S1376x32x8 .f32 := Host.absf main_arg2
  let main_cst_0 : FVec F S_ .f32 := constant S_ .f32 0x7F800000#32
  let main_v5 : FVec F S1376x32x8 .f32 := broadcastInDim S1376x32x8 ![] bcast_S_S1376x32x8 main_cst_0
  let main_v6 : IVec S1376x32x8 1 := cmpf .olt main_v4 main_v5
  let main_c_1 : IVec S_ 1 := constantI S_ 1 1#1
  let main_v7 : IVec S_ 1 := (fun x v => Host.reduce IntOp.andi x v reducesTo_S1376x32x8_S_d0_1_2 h_S_) main_v6 main_c_1
  let main_v8 : IVec S_ 1 := andi main_v3 main_v7
  main_v8
-- ==== Kernel.lean ====
abbrev S8x4096 : Shape := ⟨2, ![8, 4096]⟩
abbrev S1376x32x8x64 : Shape := ⟨4, ![1376, 32, 8, 64]⟩
abbrev S1376x32x8 : Shape := ⟨3, ![1376, 32, 8]⟩
abbrev S8x32x64x2 : Shape := ⟨4, ![8, 32, 64, 2]⟩
abbrev S8x32x64x1 : Shape := ⟨4, ![8, 32, 64, 1]⟩
abbrev S8x32x64 : Shape := ⟨3, ![8, 32, 64]⟩
abbrev S8x2048 : Shape := ⟨2, ![8, 2048]⟩
abbrev S8x11008 : Shape := ⟨2, ![8, 11008]⟩
abbrev S32x32x8x64 : Shape := ⟨4, ![32, 32, 8, 64]⟩
abbrev S32x32x8 : Shape := ⟨3, ![32, 32, 8]⟩
abbrev S8x256 : Shape := ⟨2, ![8, 256]⟩
abbrev S32x32x8x1 : Shape := ⟨4, ![32, 32, 8, 1]⟩
abbrev S32x8x32x64 : Shape := ⟨4, ![32, 8, 32, 64]⟩
abbrev S256x2048 : Shape := ⟨2, ![256, 2048]⟩

abbrev nBuf : Space → Nat
  | .hbm => 13
  | .vmem => 8
  | .smem => 0
  | _ => 0

abbrev bufTy : (tb : Table) → Fin (tcTables nBuf tb) → BufTy
  | .hbm, ⟨0, _⟩ => ⟨S8x4096, .f32⟩
  | .hbm, ⟨1, _⟩ => ⟨S1376x32x8x64, .i32⟩
  | .hbm, ⟨2, _⟩ => ⟨S1376x32x8, .f32⟩
  | .hbm, ⟨3, _⟩ => ⟨S8x32x64x2, .f32⟩
  | .hbm, ⟨4, _⟩ => ⟨S8x32x64x1, .f32⟩
  | .hbm, ⟨5, _⟩ => ⟨S8x32x64, .f32⟩
  | .hbm, ⟨6, _⟩ => ⟨S8x2048, .f32⟩
  | .hbm, ⟨7, _⟩ => ⟨S8x2048, .bf16⟩
  | .hbm, ⟨8, _⟩ => ⟨S8x32x64x1, .f32⟩
  | .hbm, ⟨9, _⟩ => ⟨S8x32x64, .f32⟩
  | .hbm, ⟨10, _⟩ => ⟨S8x2048, .f32⟩
  | .hbm, ⟨11, _⟩ => ⟨S8x2048, .bf16⟩
  | .hbm, ⟨12, _⟩ => ⟨S8x11008, .f32⟩
  | .local _ .vmem, ⟨0, _⟩ => ⟨S8x2048, .bf16⟩
  | .local _ .vmem, ⟨1, _⟩ => ⟨S8x2048, .bf16⟩
  | .local _ .vmem, ⟨2, _⟩ => ⟨S32x32x8x64, .i32⟩
  | .local _ .vmem, ⟨3, _⟩ => ⟨S32x32x8x64, .i32⟩
  | .local _ .vmem, ⟨4, _⟩ => ⟨S32x32x8, .f32⟩
  | .local _ .vmem, ⟨5, _⟩ => ⟨S32x32x8, .f32⟩
  | .local _ .vmem, ⟨6, _⟩ => ⟨S8x256, .f32⟩
  | .local _ .vmem, ⟨7, _⟩ => ⟨S8x256, .f32⟩
  | _, _ => ⟨S8x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![43], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S8x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S8x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S32x32x8x64 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x32x8 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S8x4096_S8x32x64x2 : S8x4096.ShapeCasts S8x32x64x2
  slices_S8x32x64x2_S8x32x64x1_0_0_0_0 : S8x32x64x2.Slices ![0, 0, 0, 0] S8x32x64x1
  shapeCasts_S8x32x64x1_S8x32x64 : S8x32x64x1.ShapeCasts S8x32x64
  shapeCasts_S8x32x64_S8x2048 : S8x32x64.ShapeCasts S8x2048
  bitsLt_bf16_f32 : FTy.bits .bf16 < FTy.bits .f32
  slices_S8x32x64x2_S8x32x64x1_0_0_0_1 : S8x32x64x2.Slices ![0, 0, 0, 1] S8x32x64x1
  inb_S32x32x8x64_S32x32x8x64_0_0_0_0 : ∀ a, (![0, 0, 0, 0] : Fin 4 → Nat) a + S32x32x8x64.size a ≤ S32x32x8x64.size a
  h_S32x32x8x64 : 0 < S32x32x8x64.numel
  inb_S32x32x8_S32x32x8_0_0_0 : ∀ a, (![0, 0, 0] : Fin 3 → Nat) a + S32x32x8.size a ≤ S32x32x8.size a
  h_S32x32x8 : 0 < S32x32x8.numel
  shapeCasts_S32x32x8_S32x32x8x1 : S32x32x8.ShapeCasts S32x32x8x1
  broadcasts_S32x32x8x1_S32x32x8x64 : S32x32x8x1.Broadcasts S32x32x8x64
  transposes_S32x32x8x64_p0_2_1_3_S32x8x32x64 : S32x32x8x64.Transposes [0, 2, 1, 3] S32x8x32x64
  shapeCasts_S32x8x32x64_S256x2048 : S32x8x32x64.ShapeCasts S256x2048
  inb_S8x2048_S8x2048_0_0 : ∀ a, (![0, 0] : Fin 2 → Nat) a + S8x2048.size a ≤ S8x2048.size a
  h_S8x2048 : 0 < S8x2048.numel
  shapeCasts_S8x2048_S8x2048 : S8x2048.ShapeCasts S8x2048
  inb_S8x256_S8x256_0_0 : ∀ a, (![0, 0] : Fin 2 → Nat) a + S8x256.size a ≤ S8x256.size a
  h_S8x256 : 0 < S8x256.numel
  dot_S8x2048_S256x2048_S8x256_1_1_0_0_n_n_wf : DotDims.WF S8x2048 S256x2048 S8x256 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S8x2048.size a ≤ S8x2048.size a
  hwx0_0 : ∀ i : grid0.Coords, EltTy.bits .bf16 = 32 ∨ (Rect.block (s := S8x2048) S8x2048.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8x2048.size a ≤ S8x2048.size a
  hwx0_1 : ∀ i : grid0.Coords, EltTy.bits .bf16 = 32 ∨ (Rect.block (s := S8x2048) S8x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S32x32x8x64.size a ≤ S1376x32x8x64.size a
  hwx0_2 : ∀ i : grid0.Coords, EltTy.bits .i32 = 32 ∨ (Rect.block (s := S1376x32x8x64) S32x32x8x64.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S32x32x8.size a ≤ S1376x32x8.size a
  hwx0_3 : ∀ i : grid0.Coords, EltTy.bits .f32 = 32 ∨ (Rect.block (s := S1376x32x8) S32x32x8.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8x256.size a ≤ S8x11008.size a
  hwx0_4 : ∀ i : grid0.Coords, EltTy.bits .f32 = 32 ∨ (Rect.block (s := S8x11008) S8x256.size (cc0_transform_4 i) (hinb0_4 i)).WholeWords (EltTy.packing .f32)

variable [Facts₀]

def dot_S8x2048_S256x2048_S8x256_1_1_0_0_n_n : DotDims S8x2048 S256x2048 S8x256 where
  lhsContracting := [1]
  rhsContracting := [1]
  lhsNonContracting := [0]
  rhsNonContracting := [0]
  lhsBatch := []
  rhsBatch := []
  wf := dot_S8x2048_S256x2048_S8x256_1_1_0_0_n_n_wf

abbrev win0_0 : Pipeline.Window sig grid0 :=
  Pipeline.Window.ofSpec (Memref.whole main_v4) S8x2048.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v8) S8x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S32x32x8x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S32x32x8.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v9) S8x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8x4096 : Shape := ⟨2, ![8, 4096]⟩
abbrev S1376x32x8x64 : Shape := ⟨4, ![1376, 32, 8, 64]⟩
abbrev S1376x32x8 : Shape := ⟨3, ![1376, 32, 8]⟩
abbrev S_ : Shape := ⟨0, ![]⟩
abbrev S1376x32x8x64x1 : Shape := ⟨5, ![1376, 32, 8, 64, 1]⟩
abbrev S1376x32x8x64x2 : Shape := ⟨5, ![1376, 32, 8, 64, 2]⟩
abbrev S1376x32x8x128 : Shape := ⟨4, ![1376, 32, 8, 128]⟩
abbrev S1376x32x8x1 : Shape := ⟨4, ![1376, 32, 8, 1]⟩
abbrev S1376x8x32x128 : Shape := ⟨4, ![1376, 8, 32, 128]⟩
abbrev S11008x4096 : Shape := ⟨2, ![11008, 4096]⟩
abbrev S4096x11008 : Shape := ⟨2, ![4096, 11008]⟩
abbrev S8x11008 : Shape := ⟨2, ![8, 11008]⟩

abbrev nBuf : Space → Nat
  | .hbm => 31
  | .vmem => 0
  | .smem => 0
  | _ => 0

abbrev bufTy : (tb : Table) → Fin (tcTables nBuf tb) → BufTy
  | .hbm, ⟨0, _⟩ => ⟨S8x4096, .f32⟩
  | .hbm, ⟨1, _⟩ => ⟨S1376x32x8x64, .i32⟩
  | .hbm, ⟨2, _⟩ => ⟨S1376x32x8, .f32⟩
  | .hbm, ⟨3, _⟩ => ⟨S_, .i32⟩
  | .hbm, ⟨4, _⟩ => ⟨S1376x32x8x64, .i32⟩
  | .hbm, ⟨5, _⟩ => ⟨S1376x32x8x64, .i32⟩
  | .hbm, ⟨6, _⟩ => ⟨S_, .i32⟩
  | .hbm, ⟨7, _⟩ => ⟨S1376x32x8x64, .i32⟩
  | .hbm, ⟨8, _⟩ => ⟨S1376x32x8x64, .i32⟩
  | .hbm, ⟨9, _⟩ => ⟨S1376x32x8x64, .f32⟩
  | .hbm, ⟨10, _⟩ => ⟨S_, .i32⟩
  | .hbm, ⟨11, _⟩ => ⟨S1376x32x8x64, .i32⟩
  | .hbm, ⟨12, _⟩ => ⟨S1376x32x8x64, .i32⟩
  | .hbm, ⟨13, _⟩ => ⟨S_, .i32⟩
  | .hbm, ⟨14, _⟩ => ⟨S1376x32x8x64, .i32⟩
  | .hbm, ⟨15, _⟩ => ⟨S1376x32x8x64, .i32⟩
  | .hbm, ⟨16, _⟩ => ⟨S_, .i32⟩
  | .hbm, ⟨17, _⟩ => ⟨S1376x32x8x64, .i32⟩
  | .hbm, ⟨18, _⟩ => ⟨S1376x32x8x64, .i32⟩
  | .hbm, ⟨19, _⟩ => ⟨S1376x32x8x64, .f32⟩
  | .hbm, ⟨20, _⟩ => ⟨S1376x32x8x64x1, .f32⟩
  | .hbm, ⟨21, _⟩ => ⟨S1376x32x8x64x1, .f32⟩
  | .hbm, ⟨22, _⟩ => ⟨S1376x32x8x64x2, .f32⟩
  | .hbm, ⟨23, _⟩ => ⟨S1376x32x8x128, .f32⟩
  | .hbm, ⟨24, _⟩ => ⟨S1376x32x8x1, .f32⟩
  | .hbm, ⟨25, _⟩ => ⟨S1376x32x8x128, .f32⟩
  | .hbm, ⟨26, _⟩ => ⟨S1376x32x8x128, .f32⟩
  | .hbm, ⟨27, _⟩ => ⟨S1376x8x32x128, .f32⟩
  | .hbm, ⟨28, _⟩ => ⟨S11008x4096, .f32⟩
  | .hbm, ⟨29, _⟩ => ⟨S4096x11008, .f32⟩
  | .hbm, ⟨30, _⟩ => ⟨S8x11008, .f32⟩
  | _, _ => ⟨S8x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c_1 : Ref sig .tc := ⟨.hbm, 10, rfl⟩
abbrev main_v5 : Ref sig .tc := ⟨.hbm, 11, rfl⟩
abbrev main_v6 : Ref sig .tc := ⟨.hbm, 12, rfl⟩
abbrev main_c_2 : Ref sig .tc := ⟨.hbm, 13, rfl⟩
abbrev main_v7 : Ref sig .tc := ⟨.hbm, 14, rfl⟩
abbrev main_v8 : Ref sig .tc := ⟨.hbm, 15, rfl⟩
abbrev main_c_3 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩

abbrev nD : Nat := 1
abbrev τ : Topo := Topo.v7x

variable {F : FTy → Type} [FloatOps F]

class Facts₀ : Prop where
  bcast_S_S1376x32x8x64 : S_.BroadcastsInDim S1376x32x8x64 (![] : Fin 0 → Fin S1376x32x8x64.rank)
  bcast_S1376x32x8x64_S1376x32x8x64x1_0_1_2_3 : S1376x32x8x64.BroadcastsInDim S1376x32x8x64x1 (![0, 1, 2, 3] : Fin 4 → Fin S1376x32x8x64x1.rank)
  concatenates_S1376x32x8x64x1_S1376x32x8x64x1_S1376x32x8x64x2_d4 : Shape.Concatenates [S1376x32x8x64x1, S1376x32x8x64x1] S1376x32x8x64x2 4
  shapeCasts_S1376x32x8x64x2_S1376x32x8x128 : S1376x32x8x64x2.ShapeCasts S1376x32x8x128
  bcast_S1376x32x8_S1376x32x8x1_0_1_2 : S1376x32x8.BroadcastsInDim S1376x32x8x1 (![0, 1, 2] : Fin 3 → Fin S1376x32x8x1.rank)
  bcast_S1376x32x8x1_S1376x32x8x128_0_1_2_3 : S1376x32x8x1.BroadcastsInDim S1376x32x8x128 (![0, 1, 2, 3] : Fin 4 → Fin S1376x32x8x128.rank)
  transposes_S1376x32x8x128_S1376x8x32x128_0_2_1_3 : S1376x32x8x128.Transposes [0, 2, 1, 3] S1376x8x32x128
  shapeCasts_S1376x8x32x128_S11008x4096 : S1376x8x32x128.ShapeCasts S11008x4096
  transposes_S11008x4096_S4096x11008_1_0 : S11008x4096.Transposes [1, 0] S4096x11008
  dot_S8x4096_S4096x11008_S8x11008_1_0_0_1_n_n_wf : DotDims.WF S8x4096 S4096x11008 S8x11008 [1] [0] [0] [1] [] []

variable [Facts₀]

def dot_S8x4096_S4096x11008_S8x11008_1_0_0_1_n_n : DotDims S8x4096 S4096x11008 S8x11008 where
  lhsContracting := [1]
  rhsContracting := [0]
  lhsNonContracting := [0]
  rhsNonContracting := [1]
  lhsBatch := []
  rhsBatch := []
  wf := dot_S8x4096_S4096x11008_S8x11008_1_0_0_1_n_n_wf

class Facts : Prop extends Facts₀ where

variable [Facts]
-- ==== Proof.Nibbles.lean ====
/-
  The two 4-bit codes packed in a weight word, recentred.

  A packed word carries two unsigned 4-bit codes: the low one in bits 0..3, the high one in bits 4..7. Both programs
  recentre a code `q` to `q - 8`, a number between -8 and 7. The kernel first keeps the low byte (`w &&& 255`), converts
  the code to a float and subtracts the float 8; the reference subtracts the integer 8 and then converts. Keeping the
  low byte changes neither code: the low code reads bits 0..3 and the high code, after the arithmetic shift by 4,
  bits 4..7, all of them inside the low byte. A code is below 16, so subtracting 8 from it as a 32-bit word does not
  wrap, and the integer read signed is `q - 8`. At the extended reals the conversion is exact and the float 8 is the
  real 8, so both orders give the same real number.
-/
import Idealize.ShloMosaic.PureOps.Ideal
import Mathlib.Tactic.IntervalCases
import Mathlib.Tactic.NormNum

noncomputable section

namespace Cert.Nibbles

open Idealize.ShloMosaic

/-- The low code of a packed word, recentred: `(w mod 16) - 8` as an extended real. -/
def lowCode (w : BitVec 32) : EReal := (((((w &&& 15#32).toInt - 8 : ℤ) : ℝ)) : EReal)

/-- The high code of a packed word, recentred: `((w >> 4) mod 16) - 8` as an extended real. -/
def highCode (w : BitVec 32) : EReal := ((((((w.sshiftRight' 4#32) &&& 15#32).toInt - 8 : ℤ) : ℝ)) : EReal)

/-- Keeping the low byte first does not change the low code. -/
theorem and_byte_and_low (w : BitVec 32) : (w &&& 255#32) &&& 15#32 = w &&& 15#32 := by
  rw [BitVec.and_assoc]; rfl

/-- Keeping the low byte first does not change the high code: the shift distributes over the mask, and the byte mask
    shifted by 4 is the code mask. -/
theorem shift_byte_and_low (w : BitVec 32) :
    ((w &&& 255#32).sshiftRight' 4#32) &&& 15#32 = (w.sshiftRight' 4#32) &&& 15#32 := by
  show ((w &&& 255#32).sshiftRight 4) &&& 15#32 = (w.sshiftRight 4) &&& 15#32
  rw [BitVec.sshiftRight_and_distrib, BitVec.and_assoc]; rfl

/-- A code is below 16, so subtracting 8 from it as a word does not wrap. -/
theorem toInt_code_sub (v : BitVec 32) : ((v &&& 15#32) - 8#32).toInt = (v &&& 15#32).toInt - 8 := by
  have h : (v &&& 15#32).toNat < 16 := by
    rw [BitVec.toNat_and]; exact Nat.lt_succ_of_le Nat.and_le_right
  generalize v &&& 15#32 = a at h
  have ha : a = BitVec.ofNat 32 a.toNat := by simp
  rw [ha]
  generalize a.toNat = n at h
  interval_cases n <;> decide

/-- The bf16 pattern `0x4100` denotes the real 8. -/
theorem ofBits_eight : Ideal.ofBits .bf16 0x4100#16 = ((8 : ℝ) : EReal) := by
  simp [Ideal.ofBits, Ideal.ieee, -EReal.coe_mul]; norm_num

/-- A shift by 4 is below the word's width: on the vector unit and on the host it is the arithmetic shift. -/
theorem shrsi_vector_four (x : BitVec 32) : IntOp.shrsi .vector x 4#32 = x.sshiftRight' 4#32 := by
  unfold IntOp.shrsi; rw [if_pos (by decide)]
theorem shrsi_host_four (x : BitVec 32) : IntOp.shrsi .host x 4#32 = x.sshiftRight' 4#32 := by
  unfold IntOp.shrsi; rw [if_pos (by decide)]

/-- An integer code converted and then lowered by the float 8 is the code lowered by 8. -/
theorem coe_sub_eight (z : ℤ) : (((z : ℝ)) : EReal) - ((8 : ℝ) : EReal) = ((((z - 8 : ℤ) : ℝ)) : EReal) := by
  rw [← EReal.coe_sub]; congr 1; push_cast; ring

/-- The kernel's low code: low byte, code mask, conversion, minus the float 8. -/
theorem kernel_low (w : BitVec 32) :
    ((((IntOp.andi (IntOp.andi w 255#32) 15#32).toInt : ℝ)) : EReal) - Ideal.ofBits .bf16 0x4100#16 = lowCode w := by
  show (((((w &&& 255#32) &&& 15#32).toInt : ℝ)) : EReal) - _ = _
  rw [and_byte_and_low, ofBits_eight, coe_sub_eight]; rfl

/-- The kernel's high code: low byte, shift, code mask, conversion, minus the float 8. -/
theorem kernel_high (w : BitVec 32) :
    ((((IntOp.andi (IntOp.shrsi .vector (IntOp.andi w 255#32) 4#32) 15#32).toInt : ℝ)) : EReal)
      - Ideal.ofBits .bf16 0x4100#16 = highCode w := by
  rw [shrsi_vector_four]
  show ((((((w &&& 255#32).sshiftRight' 4#32) &&& 15#32).toInt : ℝ)) : EReal) - _ = _
  rw [shift_byte_and_low, ofBits_eight, coe_sub_eight]; rfl

/-- The reference's low code: code mask, minus the integer 8, conversion. -/
theorem reference_low (w : BitVec 32) :
    ((((IntOp.subi (IntOp.andi w 15#32) 8#32).toInt : ℝ)) : EReal) = lowCode w := by
  show (((((w &&& 15#32) - 8#32).toInt : ℝ)) : EReal) = _
  rw [toInt_code_sub]; rfl

/-- The reference's high code: shift, code mask, minus the integer 8, conversion. -/
theorem reference_high (w : BitVec 32) :
    ((((IntOp.subi (IntOp.andi (IntOp.shrsi .host w 4#32) 15#32) 8#32).toInt : ℝ)) : EReal) = highCode w := by
  rw [shrsi_host_four]
  show ((((((w.sshiftRight' 4#32) &&& 15#32) - 8#32).toInt : ℝ)) : EReal) = _
  rw [toInt_code_sub]; rfl

end Cert.Nibbles

end
-- ==== Proof.LibSums.lean ====
/-
  Sums regrouped.

  A sum over a range cut into equal blocks is the double sum over blocks and places inside a block; a sum over a range
  whose tail terms vanish is the sum over the head; a sum over the indices of a rank-1, rank-2 or rank-3 array is the
  iterated sum over the coordinates. All of it holds in any additive commutative monoid, so also for the extended reals,
  whose addition is commutative and associative even at the infinities. The last part is about the extended reals alone:
  negation passes through a sum of non-negative terms, the embedding of the reals passes through a sum, and a few facts
  on the sign and the finiteness of sums and squares.
-/
import Mathlib.Algebra.BigOperators.Fin
import Mathlib.Algebra.BigOperators.Group.Finset.Basic
import Mathlib.Algebra.Order.BigOperators.Group.Finset
import Mathlib.Logic.Equiv.Fin.Basic
import Mathlib.Data.EReal.Operations
import Idealize.ShloMosaic.PureOps.Ideal
import Idealize.ShloMosaic.Lib.ValueIdx

open scoped BigOperators

namespace Cert.LibSums

open Idealize.ShloMosaic

section Monoid

variable {M : Type*} [AddCommMonoid M]

/-! ## Blocks and tails -/

/-- `B` blocks of `R` consecutive places: the double sum over (block, place in the block) is the sum over all `B * R` places. -/
theorem sum_blocks (B R : ℕ) (f : ℕ → M) :
    ∑ t : Fin B, ∑ r : Fin R, f (t.val * R + r.val) = ∑ i : Fin (B * R), f i.val := by
  rw [← Equiv.sum_comp (finProdFinEquiv (m := B) (n := R)) (fun i => f i.val), Fintype.sum_prod_type]
  refine Finset.sum_congr rfl fun t _ => Finset.sum_congr rfl fun r _ => ?_
  show f (t.val * R + r.val) = f (r.val + R * t.val)
  rw [Nat.mul_comm, Nat.add_comm]

/-- Five blocks of 3000. -/
theorem sum_blocks_5_3000 (f : ℕ → M) :
    ∑ t : Fin 5, ∑ r : Fin 3000, f (t.val * 3000 + r.val) = ∑ i : Fin 15000, f i.val := sum_blocks 5 3000 f

/-- Twenty-five blocks of 4000. -/
theorem sum_blocks_25_4000 (f : ℕ → M) :
    ∑ t : Fin 25, ∑ r : Fin 4000, f (t.val * 4000 + r.val) = ∑ i : Fin 100000, f i.val := sum_blocks 25 4000 f

/-- A hundred and fifty-eight blocks of 64. -/
theorem sum_blocks_158_64 (f : ℕ → M) :
    ∑ t : Fin 158, ∑ r : Fin 64, f (t.val * 64 + r.val) = ∑ i : Fin 10112, f i.val := sum_blocks 158 64 f

/-- A sum over the first `N` naturals whose terms from `n` on vanish is the sum over the first `n`. -/
theorem sum_fin_le (n N : ℕ) (h : n ≤ N) (f : ℕ → M) (hf : ∀ i, n ≤ i → i < N → f i = 0) :
    ∑ i : Fin N, f i.val = ∑ i : Fin n, f i.val := by
  rw [Fin.sum_univ_eq_sum_range f N, Fin.sum_univ_eq_sum_range f n]
  refine (Finset.sum_subset (Finset.range_subset_range.2 h) fun i hi hni => ?_).symm
  exact hf i (Nat.le_of_not_lt fun hlt => hni (Finset.mem_range.2 hlt)) (Finset.mem_range.1 hi)

/-- Two indices at once: rows in `B` blocks of `R`, columns up to `C`, the function vanishing as soon as the row
    reaches `n` or the column reaches `m`: the triple sum is the double sum over `n` rows and `m` columns. -/
theorem sum_blocks_tail2 (B R C n m : ℕ) (hn : n ≤ B * R) (hm : m ≤ C) (f : ℕ → ℕ → M)
    (hf : ∀ r c, n ≤ r ∨ m ≤ c → f r c = 0) :
    ∑ t : Fin B, ∑ r : Fin R, ∑ c : Fin C, f (t.val * R + r.val) c.val = ∑ r : Fin n, ∑ c : Fin m, f r.val c.val := by
  rw [sum_blocks B R (fun i => ∑ c : Fin C, f i c.val)]
  rw [sum_fin_le n (B * R) hn (fun i => ∑ c : Fin C, f i c.val)
    (fun i hi _ => Finset.sum_eq_zero fun c _ => hf i c.val (Or.inl hi))]
  refine Finset.sum_congr rfl fun r _ => ?_
  exact sum_fin_le m C hm (f r.val) (fun c hc _ => hf r.val c (Or.inr hc))

/-- Rows in 158 blocks of 64 against 10112 columns, of which the first 10000 rows and columns count. -/
theorem sum_158_64_10112 (f : ℕ → ℕ → M) (hf : ∀ r c, 10000 ≤ r ∨ 10000 ≤ c → f r c = 0) :
    ∑ t : Fin 158, ∑ r : Fin 64, ∑ c : Fin 10112, f (t.val * 64 + r.val) c.val
      = ∑ r : Fin 10000, ∑ c : Fin 10000, f r.val c.val :=
  sum_blocks_tail2 158 64 10112 10000 10000 (by decide) (by decide) f hf

end Monoid

section Idx

variable {M : Type*} [AddCommMonoid M]

open Idealize.ShloMosaic.ValueIdx

/-! ## Sums over an array's indices, by coordinates (rank 2 is the library's `ValueIdx.sum_idx2`) -/

/-- A rank-1 index set is its one coordinate's range. -/
def idxEquiv1 {n : ℕ} : (⟨1, ![n]⟩ : Shape).Idx ≃ Fin n where
  toFun i := i 0
  invFun a := ix1 a
  left_inv i := (eq_ix1 i).symm
  right_inv _ := rfl

/-- A sum over the indices of a rank-1 array is the sum over its one coordinate. -/
theorem sum_idx1 {n : ℕ} (g : (⟨1, ![n]⟩ : Shape).Idx → M) : ∑ j, g j = ∑ p : Fin n, g (ix1 p) := by
  rw [← Equiv.sum_comp (idxEquiv1 (n := n)).symm g]
  rfl

/-- A rank-3 index set is the product of its three coordinate ranges. -/
def idxEquiv3 {n0 n1 n2 : ℕ} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- A sum over the indices of a rank-3 array is the triple sum over the coordinates. -/
theorem sum_idx3 {n0 n1 n2 : ℕ} (g : (⟨3, ![n0, n1, n2]⟩ : Shape).Idx → M) :
    ∑ j, g j = ∑ p : Fin n0, ∑ q : Fin n1, ∑ r : Fin n2, g (ix3 p q r) := by
  rw [← Equiv.sum_comp (idxEquiv3 (n0 := n0) (n1 := n1) (n2 := n2)).symm g, Fintype.sum_prod_type]
  refine Finset.sum_congr rfl fun p _ => ?_
  rw [Fintype.sum_prod_type]
  rfl

/-- A sum over the indices of a rank-2 array is the double sum over the coordinates (the library's `sum_idx2`, restated
    with the index type written out). -/
theorem sum_idx2' {a b : ℕ} (g : (⟨2, ![a, b]⟩ : Shape).Idx → M) :
    ∑ j : (⟨2, ![a, b]⟩ : Shape).Idx, g j = ∑ p : Fin a, ∑ q : Fin b, g (ix2 p q) := sum_idx2 g

end Idx

/-! ## The extended reals -/

section EReal

variable {ι : Type*}

/-- The embedding of the reals passes through a finite sum. -/
theorem sum_coe (s : Finset ι) (f : ι → ℝ) : ∑ i ∈ s, ((f i : ℝ) : EReal) = ((∑ i ∈ s, f i : ℝ) : EReal) := by
  classical
  induction s using Finset.induction_on with
  | empty => simp
  | insert i s hi ih => rw [Finset.sum_insert hi, Finset.sum_insert hi, ih, EReal.coe_add]

/-- A sum none of whose terms is `⊥` is not `⊥`. -/
theorem sum_ne_bot (s : Finset ι) (a : ι → EReal) (h : ∀ i ∈ s, a i ≠ ⊥) : ∑ i ∈ s, a i ≠ ⊥ := by
  classical
  induction s using Finset.induction_on with
  | empty => simp
  | insert i s hi ih =>
    rw [Finset.sum_insert hi]
    exact EReal.add_ne_bot_iff.2 ⟨h i (Finset.mem_insert_self i s), ih fun j hj => h j (Finset.mem_insert_of_mem hj)⟩

/-- A sum none of whose terms is `⊤` is not `⊤` (whatever the other terms: `⊤ + ⊥ = ⊥`). -/
theorem sum_ne_top (s : Finset ι) (a : ι → EReal) (h : ∀ i ∈ s, a i ≠ ⊤) : ∑ i ∈ s, a i ≠ ⊤ := by
  classical
  induction s using Finset.induction_on with
  | empty => simp
  | insert i s hi ih =>
    rw [Finset.sum_insert hi]
    exact EReal.add_ne_top (h i (Finset.mem_insert_self i s)) (ih fun j hj => h j (Finset.mem_insert_of_mem hj))

/-- A sum of reals is not `⊥`. -/
theorem sum_coe_ne_bot (s : Finset ι) (f : ι → ℝ) : ∑ i ∈ s, ((f i : ℝ) : EReal) ≠ ⊥ :=
  sum_ne_bot s _ fun i _ => EReal.coe_ne_bot (f i)

/-- A sum of reals is not `⊤`. -/
theorem sum_coe_ne_top (s : Finset ι) (f : ι → ℝ) : ∑ i ∈ s, ((f i : ℝ) : EReal) ≠ ⊤ :=
  sum_ne_top s _ fun i _ => EReal.coe_ne_top (f i)

/-- A sum of non-negative terms is non-negative. -/
theorem sum_nonneg (s : Finset ι) (a : ι → EReal) (h : ∀ i ∈ s, 0 ≤ a i) : 0 ≤ ∑ i ∈ s, a i :=
  Finset.sum_nonneg h

/-- Each term of a sum of non-negative terms is at most the sum. -/
theorem le_sum_of_nonneg (s : Finset ι) (a : ι → EReal) (h : ∀ i ∈ s, 0 ≤ a i) {i : ι} (hi : i ∈ s) :
    a i ≤ ∑ j ∈ s, a j :=
  Finset.single_le_sum h hi

/-- A sum of non-negative terms one of which is positive is positive. -/
theorem sum_pos (s : Finset ι) (a : ι → EReal) (h : ∀ i ∈ s, 0 ≤ a i) {i : ι} (hi : i ∈ s) (hpos : 0 < a i) :
    0 < ∑ j ∈ s, a j :=
  lt_of_lt_of_le hpos (le_sum_of_nonneg s a h hi)

/-- If a sum of non-negative terms is below `⊤`, so is every term. -/
theorem lt_top_of_sum_lt_top (s : Finset ι) (a : ι → EReal) (h : ∀ i ∈ s, 0 ≤ a i) (hs : ∑ i ∈ s, a i < ⊤) :
    ∀ i ∈ s, a i < ⊤ :=
  fun _ hi => lt_of_le_of_lt (le_sum_of_nonneg s a h hi) hs

/-- Negation passes through a sum of non-negative terms: no partial sum is `⊥`, so no `⊤ + ⊥` is met. -/
theorem neg_sum_of_nonneg (s : Finset ι) (a : ι → EReal) (h : ∀ i ∈ s, 0 ≤ a i) :
    ∑ i ∈ s, -(a i) = -(∑ i ∈ s, a i) := by
  classical
  induction s using Finset.induction_on with
  | empty => simp
  | insert i s hi ih =>
    have hs : ∀ j ∈ s, 0 ≤ a j := fun j hj => h j (Finset.mem_insert_of_mem hj)
    have h1 : a i ≠ ⊥ := ne_of_gt (lt_of_lt_of_le EReal.bot_lt_zero (h i (Finset.mem_insert_self i s)))
    have h2 : ∑ j ∈ s, a j ≠ ⊥ := ne_of_gt (lt_of_lt_of_le EReal.bot_lt_zero (sum_nonneg s a hs))
    rw [Finset.sum_insert hi, Finset.sum_insert hi, ih hs, EReal.neg_add (Or.inl h1) (Or.inr h2), sub_eq_add_neg]

/-- A square is non-negative, also at the infinities (`⊥ * ⊥ = ⊤`). -/
theorem ereal_mul_self_nonneg (x : EReal) : 0 ≤ x * x := by
  induction x with
  | bot => rw [EReal.bot_mul_bot]; exact le_top
  | coe r => rw [← EReal.coe_mul]; exact EReal.coe_nonneg.2 (_root_.mul_self_nonneg r)
  | top => rw [EReal.top_mul_top]; exact le_top

/-- The square of a non-zero extended real is positive. -/
theorem ereal_mul_self_pos (x : EReal) (hx : x ≠ 0) : 0 < x * x := by
  induction x with
  | bot => rw [EReal.bot_mul_bot]; exact EReal.zero_lt_top
  | coe r =>
    rw [← EReal.coe_mul]
    exact EReal.coe_pos.2 (_root_.mul_self_pos.2 fun hr => hx (by rw [hr, EReal.coe_zero]))
  | top => rw [EReal.top_mul_top]; exact EReal.zero_lt_top

/-- A square below `⊤` is the square of a real. -/
theorem ereal_of_mul_self_lt_top (x : EReal) (h : x * x < ⊤) : x ≠ ⊥ ∧ x ≠ ⊤ := by
  refine ⟨fun hx => ?_, fun hx => ?_⟩
  · rw [hx, EReal.bot_mul_bot] at h; exact lt_irrefl _ h
  · rw [hx, EReal.top_mul_top] at h; exact lt_irrefl _ h

end EReal

end Cert.LibSums
-- ==== Proof.Spec.lean ====
/-
  The result both programs compute, as one function of the three argument arrays.

  The weight matrix has 11008 output columns and 4096 input features. Output column `n` lies in tile `n / 8` at row
  `n % 8` of the tile; input feature `j` lies in group `j / 128`, and inside the group at place `j % 128`, whose packed
  word is number `(j % 128) / 2` of the group: an even place reads the word's low code, an odd place its high code. The
  entry is the recentred code times the scale of (tile, group, row). The result at (b, n) is the sum over the 4096
  features of `x[b, j]` times that entry.

  The kernel adds the even features and the odd features in two separate sums of 2048 terms. Feature `2k` and feature
  `2k + 1` both use word `k % 64` of group `k / 64`. Splitting a sum over 4096 places into its even and its odd
  places only regroups a finite sum in a commutative monoid, so it holds on the extended reals with no finiteness
  assumption.
-/
import Idealize.ShloMosaic.PureOps.Ideal
import Idealize.ShloMosaic.Lib.ValueIdx
import Mathlib.Algebra.BigOperators.Fin
import proofs.«400681_j67843303408008_3_alg».proof.Proof.Nibbles
import proofs.«400681_j67843303408008_3_alg».proof.Proof.LibSums

open scoped BigOperators

noncomputable section

namespace Cert.Spec

open Idealize.ShloMosaic Idealize.ShloMosaic.ValueIdx Cert.Nibbles

abbrev SX : Shape := ⟨2, ![8, 4096]⟩
abbrev SW : Shape := ⟨4, ![1376, 32, 8, 64]⟩
abbrev SS : Shape := ⟨3, ![1376, 32, 8]⟩
abbrev SO : Shape := ⟨2, ![8, 11008]⟩

/-- The tile of an output column, and its row inside the tile. -/
def tileOf (n : Fin 11008) : Fin 1376 := ⟨n.val / 8, by have := n.isLt; omega⟩
def rowOf (n : Fin 11008) : Fin 8 := ⟨n.val % 8, by omega⟩
/-- The group of an input feature, and the packed word of the group that holds its code. -/
def groupOf (j : Fin 4096) : Fin 32 := ⟨j.val / 128, by have := j.isLt; omega⟩
def wordOf (j : Fin 4096) : Fin 64 := ⟨j.val % 128 / 2, by omega⟩

/-- Entry (n, j) of the dequantised weight matrix. -/
def weight (w : IVec SW 32) (s : FVec Ideal SS .f32) (n : Fin 11008) (j : Fin 4096) : EReal :=
  (if j.val % 2 = 0 then lowCode (w (ix4 (tileOf n) (groupOf j) (rowOf n) (wordOf j)))
    else highCode (w (ix4 (tileOf n) (groupOf j) (rowOf n) (wordOf j))))
  * s (ix3 (tileOf n) (groupOf j) (rowOf n))

/-- The result at row `b` and output column `n`: the sum over the features of `x[b, j]` times entry (n, j). -/
def entry (x : FVec Ideal SX .f32) (w : IVec SW 32) (s : FVec Ideal SS .f32) (b : Fin 8) (n : Fin 11008) : EReal :=
  ∑ j : Fin 4096, x (ix2 b j) * weight w s n j

/-- The result: `x` times the transposed dequantised weight matrix. -/
def G (x : FVec Ideal SX .f32) (w : IVec SW 32) (s : FVec Ideal SS .f32) : FVec Ideal SO .f32 :=
  fun i => entry x w s (i 0) (i 1)

/-! ## Even and odd features -/

/-- Feature `2k`, feature `2k + 1`, and the group and word they share. -/
def evenOf (k : Fin 2048) : Fin 4096 := ⟨k.val * 2, by have := k.isLt; omega⟩
def oddOf (k : Fin 2048) : Fin 4096 := ⟨k.val * 2 + 1, by have := k.isLt; omega⟩
def pairGroup (k : Fin 2048) : Fin 32 := ⟨k.val / 64, by have := k.isLt; omega⟩
def pairWord (k : Fin 2048) : Fin 64 := ⟨k.val % 64, by omega⟩

/-- A sum over 4096 places is the sum over the even places plus the sum over the odd places. -/
theorem sum_even_odd {M : Type*} [AddCommMonoid M] (f : Fin 4096 → M) :
    ∑ j, f j = ∑ k : Fin 2048, f (evenOf k) + ∑ k : Fin 2048, f (oddOf k) := by
  rw [← Finset.sum_add_distrib]
  have h := Cert.LibSums.sum_blocks (M := M) 2048 2 (fun j => if h : j < 4096 then f ⟨j, h⟩ else 0)
  have e1 : ∑ i : Fin (2048 * 2), (fun j => if h : j < 4096 then f ⟨j, h⟩ else 0) i.val = ∑ j : Fin 4096, f j :=
    Finset.sum_congr rfl fun i _ => dif_pos i.isLt
  rw [← e1, ← h]
  refine Finset.sum_congr rfl fun k _ => ?_
  rw [Fin.sum_univ_two]
  have hk := k.isLt
  show (if h : k.val * 2 + 0 < 4096 then f ⟨k.val * 2 + 0, h⟩ else 0)
      + (if h : k.val * 2 + 1 < 4096 then f ⟨k.val * 2 + 1, h⟩ else 0) = _
  rw [dif_pos (by omega), dif_pos (by omega)]
  rfl

theorem groupOf_evenOf (k : Fin 2048) : groupOf (evenOf k) = pairGroup k :=
  Fin.ext (by show k.val * 2 / 128 = k.val / 64; omega)
theorem groupOf_oddOf (k : Fin 2048) : groupOf (oddOf k) = pairGroup k :=
  Fin.ext (by show (k.val * 2 + 1) / 128 = k.val / 64; omega)
theorem wordOf_evenOf (k : Fin 2048) : wordOf (evenOf k) = pairWord k :=
  Fin.ext (by show k.val * 2 % 128 / 2 = k.val % 64; omega)
theorem wordOf_oddOf (k : Fin 2048) : wordOf (oddOf k) = pairWord k :=
  Fin.ext (by show (k.val * 2 + 1) % 128 / 2 = k.val % 64; omega)

/-- An even feature's entry is the low code of the pair's word times the scale. -/
theorem weight_evenOf (w : IVec SW 32) (s : FVec Ideal SS .f32) (n : Fin 11008) (k : Fin 2048) :
    weight w s n (evenOf k)
      = lowCode (w (ix4 (tileOf n) (pairGroup k) (rowOf n) (pairWord k))) * s (ix3 (tileOf n) (pairGroup k) (rowOf n)) := by
  unfold weight
  rw [if_pos (show (evenOf k).val % 2 = 0 by show k.val * 2 % 2 = 0; omega), groupOf_evenOf, wordOf_evenOf]

/-- An odd feature's entry is the high code of the pair's word times the scale. -/
theorem weight_oddOf (w : IVec SW 32) (s : FVec Ideal SS .f32) (n : Fin 11008) (k : Fin 2048) :
    weight w s n (oddOf k)
      = highCode (w (ix4 (tileOf n) (pairGroup k) (rowOf n) (pairWord k))) * s (ix3 (tileOf n) (pairGroup k) (rowOf n)) := by
  unfold weight
  rw [if_neg (show ¬ (oddOf k).val % 2 = 0 by show ¬ (k.val * 2 + 1) % 2 = 0; omega), groupOf_oddOf, wordOf_oddOf]

/-- The result as the kernel adds it up: the even features' sum plus the odd features' sum. -/
theorem entry_split (x : FVec Ideal SX .f32) (w : IVec SW 32) (s : FVec Ideal SS .f32) (b : Fin 8) (n : Fin 11008) :
    entry x w s b n
      = ∑ k : Fin 2048, x (ix2 b (evenOf k))
          * (lowCode (w (ix4 (tileOf n) (pairGroup k) (rowOf n) (pairWord k))) * s (ix3 (tileOf n) (pairGroup k) (rowOf n)))
        + ∑ k : Fin 2048, x (ix2 b (oddOf k))
          * (highCode (w (ix4 (tileOf n) (pairGroup k) (rowOf n) (pairWord k))) * s (ix3 (tileOf n) (pairGroup k) (rowOf n))) := by
  unfold entry
  rw [sum_even_odd]
  exact congrArg₂ (· + ·)
    (Finset.sum_congr rfl fun k _ => congrArg (x (ix2 b (evenOf k)) * ·) (weight_evenOf w s n k))
    (Finset.sum_congr rfl fun k _ => congrArg (x (ix2 b (oddOf k)) * ·) (weight_oddOf w s n k))

end Cert.Spec

end
-- ==== Proof.RefValue.lean ====
/-
  The reference computes the specified result.

  The reference builds the dequantised weight matrix on the host: both codes of every word, recentred as integers and
  converted; the two code arrays laid side by side along a new last axis of extent 2 and flattened, so that place `q`
  of a group reads word `q / 2`, its low code when `q` is even and its high code when `q` is odd; times the scale of
  (tile, group, row); the group axis and the row axis swapped and the array flattened to 11008 rows of 4096 features,
  row `n` being (tile `n / 8`, row `n % 8`) and feature `j` being (group `j / 128`, place `j % 128`); transposed; and
  contracted with `x` over the 4096 features. Read index by index this is the specification's sum.
-/
import proofs.«400681_j67843303408008_3_alg».proof.Proof.Gen.ReferenceIdeal.Read
import proofs.«400681_j67843303408008_3_alg».proof.Proof.Spec
import Idealize.ShloMosaic.Lib.Pipeline.Value
import Idealize.ShloMosaic.Lib.ValueIdx

open scoped BigOperators

noncomputable section

namespace Cert.ReferenceIdeal.RefValue

open Cert.ReferenceIdeal Cert.ReferenceIdeal.Gen Cert.ReferenceIdeal.Read Idealize.ShloMosaic Idealize.ShloMosaic.ValueIdx
open Cert.Spec Cert.Nibbles

/-- The low codes, recentred and converted, at a word. -/
theorem low_at (x1 : IVec S1376x32x8x64 32) (i : S1376x32x8x64.Idx) :
    val_main_v4 (F := Ideal) x1 i = lowCode (x1 i) := by
  rw [val_main_v4_apply, val_main_v3_apply, val_main_v1_apply, val_main_v0_apply, val_main_c_apply, val_main_v2_apply,
    val_main_c_0_apply]
  exact reference_low (x1 i)

/-- The high codes, recentred and converted, at a word. -/
theorem high_at (x1 : IVec S1376x32x8x64 32) (i : S1376x32x8x64.Idx) :
    val_main_v11 (F := Ideal) x1 i = highCode (x1 i) := by
  rw [val_main_v11_apply, val_main_v10_apply, val_main_v8_apply, val_main_v6_apply, val_main_v5_apply, val_main_c_1_apply,
    val_main_v7_apply, val_main_c_2_apply, val_main_v9_apply, val_main_c_3_apply]
  exact reference_high (x1 i)

/-- The interleaved codes: place `q` of a group reads word `q / 2`, low code at an even place, high code at an odd one. -/
theorem codes_at (x1 : IVec S1376x32x8x64 32) (T : Fin 1376) (g : Fin 32) (r : Fin 8) (q : Fin 128) (h : Fin 64)
    (hh : h.val = q.val / 2) :
    val_main_v15 (F := Ideal) x1 (ix4 T g r q)
      = if q.val % 2 = 0 then lowCode (x1 (ix4 T g r h)) else highCode (x1 (ix4 T g r h)) := by
  have hT := T.isLt; have hg := g.isLt; have hr := r.isLt; have hq := q.isLt
  rw [val_main_v15_apply]
  unfold val_main_v14
  by_cases hpar : q.val % 2 = 0
  · rw [if_pos hpar]
    rw [concatenate_pair_apply_left 4 (val_main_v12 (F := Ideal) x1) (val_main_v13 (F := Ideal) x1)
      concatenates_S1376x32x8x64x1_S1376x32x8x64x1_S1376x32x8x64x2_d4 (idx_main_v15 (ix4 T g r q)) rfl
      (ix5 T g r h (0 : Fin 1)) (fun b => by
        match b with
        | ⟨0, _⟩ => show T.val = (((T.val * 32 + g.val) * 8 + r.val) * 128 + q.val) / 32768; omega
        | ⟨1, _⟩ => show g.val = (((T.val * 32 + g.val) * 8 + r.val) * 128 + q.val) / 1024 % 32; omega
        | ⟨2, _⟩ => show r.val = (((T.val * 32 + g.val) * 8 + r.val) * 128 + q.val) / 128 % 8; omega
        | ⟨3, _⟩ => show h.val = (((T.val * 32 + g.val) * 8 + r.val) * 128 + q.val) / 2 % 64; omega
        | ⟨4, _⟩ => show 0 = (((T.val * 32 + g.val) * 8 + r.val) * 128 + q.val) % 2; omega)]
    rw [val_main_v12_apply, low_at]
    exact congrArg (fun j => lowCode (x1 j)) (funext fun a => by
      match a with
      | ⟨0, _⟩ => rfl
      | ⟨1, _⟩ => rfl
      | ⟨2, _⟩ => rfl
      | ⟨3, _⟩ => rfl)
  · rw [if_neg hpar]
    rw [concatenate_pair_apply_right 4 (val_main_v12 (F := Ideal) x1) (val_main_v13 (F := Ideal) x1)
      concatenates_S1376x32x8x64x1_S1376x32x8x64x1_S1376x32x8x64x2_d4 (idx_main_v15 (ix4 T g r q)) rfl rfl
      (ix5 T g r h (0 : Fin 1)) (fun b hb => by
        match b with
        | ⟨0, _⟩ => show T.val = (((T.val * 32 + g.val) * 8 + r.val) * 128 + q.val) / 32768; omega
        | ⟨1, _⟩ => show g.val = (((T.val * 32 + g.val) * 8 + r.val) * 128 + q.val) / 1024 % 32; omega
        | ⟨2, _⟩ => show r.val = (((T.val * 32 + g.val) * 8 + r.val) * 128 + q.val) / 128 % 8; omega
        | ⟨3, _⟩ => show h.val = (((T.val * 32 + g.val) * 8 + r.val) * 128 + q.val) / 2 % 64; omega
        | ⟨4, _⟩ => exact absurd rfl hb)
      (by show 0 + 1 = (((T.val * 32 + g.val) * 8 + r.val) * 128 + q.val) % 2; omega)]
    rw [val_main_v13_apply, high_at]
    exact congrArg (fun j => highCode (x1 j)) (funext fun a => by
      match a with
      | ⟨0, _⟩ => rfl
      | ⟨1, _⟩ => rfl
      | ⟨2, _⟩ => rfl
      | ⟨3, _⟩ => rfl)

/-- The scale broadcast along a group's places is the scale of (tile, group, row). -/
theorem scale_at (x2 : FVec Ideal S1376x32x8 .f32) (T : Fin 1376) (g : Fin 32) (r : Fin 8) (q : Fin 128) :
    val_main_v17 (F := Ideal) x2 (ix4 T g r q) = x2 (ix3 T g r) := by
  rw [val_main_v17_apply, val_main_v16_apply]
  exact congrArg x2 (funext fun a => by
    match a with
    | ⟨0, _⟩ => rfl
    | ⟨1, _⟩ => rfl
    | ⟨2, _⟩ => rfl)

/-- Entry (j, n) of the transposed weight matrix the reference builds is the specification's entry (n, j). -/
theorem weight_at (x1 : IVec S1376x32x8x64 32) (x2 : FVec Ideal S1376x32x8 .f32) (n : Fin 11008) (j : Fin 4096) :
    val_main_v21 (F := Ideal) x1 x2 (ix2 j n) = weight x1 x2 n j := by
  have hn := n.isLt; have hj := j.isLt
  rw [val_main_v21_apply, val_main_v20_apply, val_main_v19_apply, val_main_v18_apply]
  have e : idx_main_v19 (idx_main_v20 (idx_main_v21 (ix2 j n)))
      = ix4 (tileOf n) (groupOf j) (rowOf n) (⟨j.val % 128, by omega⟩ : Fin 128) := funext fun a => Fin.ext (by
    match a with
    | ⟨0, _⟩ => show (n.val * 4096 + j.val) / 32768 = n.val / 8; omega
    | ⟨1, _⟩ => show (n.val * 4096 + j.val) / 128 % 32 = j.val / 128; omega
    | ⟨2, _⟩ => show (n.val * 4096 + j.val) / 4096 % 8 = n.val % 8; omega
    | ⟨3, _⟩ => show (n.val * 4096 + j.val) % 128 = j.val % 128; omega)
  rw [e, codes_at x1 (tileOf n) (groupOf j) (rowOf n) ⟨j.val % 128, by omega⟩ (wordOf j) rfl, scale_at]
  unfold weight
  have hp : (j.val % 128) % 2 = j.val % 2 := by omega
  show (if (j.val % 128) % 2 = 0 then _ else _) * _ = _
  rw [hp]

/-- The reference's result is the specified function of the three arguments. -/
theorem result_eq (x0 : FVec Ideal S8x4096 .f32) (x1 : IVec S1376x32x8x64 32) (x2 : FVec Ideal S1376x32x8 .f32) :
    val_main_v22 (F := Ideal) x0 x1 x2 = G x0 x1 x2 := by
  funext i
  obtain ⟨b, n, rfl⟩ : ∃ (b : Fin 8) (n : Fin 11008), i = ix2 b n := ⟨i 0, i 1, eq_ix2 i⟩
  rw [val_main_v22_apply]
  show _ = entry x0 x1 x2 b n
  unfold entry
  refine Finset.sum_congr rfl fun k _ => ?_
  have el : lidx_main_v22 (ix2 b n) k = ix2 b k := funext fun a => by
    match a with
    | ⟨0, _⟩ => rfl
    | ⟨1, _⟩ => rfl
  have er : ridx_main_v22 (ix2 b n) k = ix2 k n := funext fun a => by
    match a with
    | ⟨0, _⟩ => rfl
    | ⟨1, _⟩ => rfl
  rw [el, er, weight_at]

end Cert.ReferenceIdeal.RefValue

end
-- ==== Proof.KernelPayload.lean ====
/-
  What the kernel body stores, entry by entry.

  One grid point sees 32 tiles of the weights: the packed words `v0[tt, g, m, h]` and the scales `v1[tt, g, m]`, with
  `tt` the tile inside the block, `g` the group, `m` the row of the tile and `h` the word of the group; and the
  whole of the even features `xe[b, k]` and of the odd features `xo[b, k]`, `k = 64 g + h`. The body recentres both
  codes of every word and multiplies by the scale; swaps the group axis and the row axis and flattens each of the two
  arrays to 256 rows (`8 tt + m`) of 2048 columns (`64 g + h`); contracts `xe` with the low-code array and `xo` with the
  high-code array over the 2048 columns, each from a zero accumulator; and adds the two products. So the stored entry
  (b, col) is the sum over `k` of `xe[b, k]` times low code times scale, plus the same with `xo` and the high code,
  at tile `col / 8`, row `col % 8`, group `k / 64`, word `k % 64`.
-/
import proofs.«400681_j67843303408008_3_alg».proof.Proof.Gen.KernelIdeal.Skeleton
import proofs.«400681_j67843303408008_3_alg».proof.Proof.Spec
import Idealize.ShloMosaic.Lib.Pipeline.Value
import Idealize.ShloMosaic.Lib.ValueIdx
import Idealize.ShloMosaic.PureOps.Ideal.Laws

open scoped BigOperators

noncomputable section

namespace Cert.KernelIdeal.Payload

open Cert.KernelIdeal Cert.KernelIdeal.Gen Idealize.ShloMosaic Idealize.ShloMosaic.ValueIdx
open Cert.Spec Cert.Nibbles

/-- The tile inside the block and the row inside the tile of a block column. -/
def blkTile (col : Fin 256) : Fin 32 := ⟨col.val / 8, by have := col.isLt; omega⟩
def blkRow (col : Fin 256) : Fin 8 := ⟨col.val % 8, by omega⟩

/-! ## The contraction: both operands carry the contracted axis last -/

theorem lhs_0 (i : S8x256.Idx) (q : dot_S8x2048_S256x2048_S8x256_1_1_0_0_n_n.contr.Idx) :
    (dot_S8x2048_S256x2048_S8x256_1_1_0_0_n_n.lhsIdx i q 0).val = (i 0).val := by
  unfold DotDims.lhsIdx
  rw [dif_neg (show ¬(0 : Fin S8x2048.rank) ∈ dot_S8x2048_S256x2048_S8x256_1_1_0_0_n_n.lhsBatch by decide), dif_pos (show (0 : Fin S8x2048.rank) ∈ dot_S8x2048_S256x2048_S8x256_1_1_0_0_n_n.lhsNonContracting by decide)]
  rfl
theorem lhs_1 (i : S8x256.Idx) (q : dot_S8x2048_S256x2048_S8x256_1_1_0_0_n_n.contr.Idx) :
    (dot_S8x2048_S256x2048_S8x256_1_1_0_0_n_n.lhsIdx i q 1).val = (q ⟨0, by decide⟩).val :=
  dot_S8x2048_S256x2048_S8x256_1_1_0_0_n_n.lhsIdx_val_of_single rfl i q
theorem rhs_0 (i : S8x256.Idx) (q : dot_S8x2048_S256x2048_S8x256_1_1_0_0_n_n.contr.Idx) :
    (dot_S8x2048_S256x2048_S8x256_1_1_0_0_n_n.rhsIdx i q 0).val = (i 1).val := by
  unfold DotDims.rhsIdx
  rw [dif_neg (show ¬(0 : Fin S256x2048.rank) ∈ dot_S8x2048_S256x2048_S8x256_1_1_0_0_n_n.rhsBatch by decide), dif_pos (show (0 : Fin S256x2048.rank) ∈ dot_S8x2048_S256x2048_S8x256_1_1_0_0_n_n.rhsNonContracting by decide)]
  rfl
theorem rhs_1 (i : S8x256.Idx) (q : dot_S8x2048_S256x2048_S8x256_1_1_0_0_n_n.contr.Idx) :
    (dot_S8x2048_S256x2048_S8x256_1_1_0_0_n_n.rhsIdx i q 1).val = (q ⟨0, by decide⟩).val :=
  dot_S8x2048_S256x2048_S8x256_1_1_0_0_n_n.rhsIdx_val_of_single rfl i q

/-- A product into the zero accumulator, at (b, col): the sum over the 2048 columns of `xq[b, k] * wq[col, k]`. -/
theorem dot_at (xq : FVec Ideal S8x2048 .bf16) (wq : FVec Ideal S256x2048 .bf16) (b : Fin 8) (col : Fin 256) :
    matmul dot_S8x2048_S256x2048_S8x256_1_1_0_0_n_n none xq wq (constant (F := Ideal) S8x256 .f32 0x00000000#32) (ix2 b col)
      = ∑ k : Fin 2048, xq (ix2 b k) * wq (ix2 col k) := by
  show FloatOps.matmul dot_S8x2048_S256x2048_S8x256_1_1_0_0_n_n none xq wq (constant (F := Ideal) S8x256 .f32 0x00000000#32) (ix2 b col) = _
  rw [Ideal.matmul_constant_zero_apply, ← Equiv.sum_comp (ValueIdx.contrEquiv1 dot_S8x2048_S256x2048_S8x256_1_1_0_0_n_n 2048 rfl rfl).symm]
  refine Finset.sum_congr rfl fun k _ => ?_
  have hk := ValueIdx.contrEquiv1_symm_val dot_S8x2048_S256x2048_S8x256_1_1_0_0_n_n 2048 rfl rfl k
  have el : dot_S8x2048_S256x2048_S8x256_1_1_0_0_n_n.lhsIdx (ix2 b col) ((ValueIdx.contrEquiv1 dot_S8x2048_S256x2048_S8x256_1_1_0_0_n_n 2048 rfl rfl).symm k) = ix2 b k := funext fun a => Fin.ext (by
    match a with
    | ⟨0, _⟩ => exact lhs_0 _ _
    | ⟨1, _⟩ => exact (lhs_1 _ _).trans hk)
  have er : dot_S8x2048_S256x2048_S8x256_1_1_0_0_n_n.rhsIdx (ix2 b col) ((ValueIdx.contrEquiv1 dot_S8x2048_S256x2048_S8x256_1_1_0_0_n_n 2048 rfl rfl).symm k) = ix2 col k := funext fun a => Fin.ext (by
    match a with
    | ⟨0, _⟩ => exact rhs_0 _ _
    | ⟨1, _⟩ => exact (rhs_1 _ _).trans hk)
  rw [el, er]

/-! ## The weight operand re-laid: rows are (tile, row), columns are (group, word) -/

/-- Swapping the group and row axes and flattening: entry (col, k) of the flat array is entry
    (tile `col / 8`, group `k / 64`, row `col % 8`, word `k % 64`) of the four-axis array. -/
theorem relaid_at (u : FVec Ideal S32x32x8x64 .bf16) (col : Fin 256) (k : Fin 2048) :
    shapeCast S256x2048 (transpose S32x8x32x64 [0, 2, 1, 3] u transposes_S32x32x8x64_p0_2_1_3_S32x8x32x64)
        shapeCasts_S32x8x32x64_S256x2048 (ix2 col k)
      = u (ix4 (blkTile col) (pairGroup k) (blkRow col) (pairWord k)) := by
  have hc := col.isLt; have hk := k.isLt
  rw [shapeCast_apply _ shapeCasts_S32x8x32x64_S256x2048 (ix2 col k)
    (ix4 (blkTile col) (blkRow col) (pairGroup k) (pairWord k))
    (by rewrite [Shape.rowMajor_val_four, Shape.rowMajor_val_two]
        show ((col.val / 8 * 8 + col.val % 8) * 32 + k.val / 64) * 64 + k.val % 64 = col.val * 2048 + k.val; omega)]
  exact transpose_apply [0, 2, 1, 3] u transposes_S32x32x8x64_p0_2_1_3_S32x8x32x64 _
    (ix4 (blkTile col) (pairGroup k) (blkRow col) (pairWord k)) (fun b => match b with
      | ⟨0, _⟩ => rfl
      | ⟨1, _⟩ => rfl
      | ⟨2, _⟩ => rfl
      | ⟨3, _⟩ => rfl)

/-- The scale, narrowed, given a unit last axis and broadcast along the words, is the scale of (tile, group, row). -/
theorem scale_at (v1 : FVec Ideal S32x32x8 .f32) (tt : Fin 32) (g : Fin 32) (m : Fin 8) (h : Fin 64) :
    broadcastTo S32x32x8x64 (shapeCast S32x32x8x1 (truncf .bf16 v1 bitsLt_bf16_f32) shapeCasts_S32x32x8_S32x32x8x1)
        broadcasts_S32x32x8x1_S32x32x8x64 (ix4 tt g m h)
      = v1 (ix3 tt g m) := by
  rw [broadcastTo_apply _ broadcasts_S32x32x8x1_S32x32x8x64 (ix4 tt g m h) (ix4 tt g m (0 : Fin 1)) (fun a => match a with
    | ⟨0, _⟩ => by show tt.val = if (32 : Nat) = 1 then 0 else tt.val; rw [if_neg (by decide)]
    | ⟨1, _⟩ => by show g.val = if (32 : Nat) = 1 then 0 else g.val; rw [if_neg (by decide)]
    | ⟨2, _⟩ => by show m.val = if (8 : Nat) = 1 then 0 else m.val; rw [if_neg (by decide)]
    | ⟨3, _⟩ => by show 0 = if (1 : Nat) = 1 then 0 else h.val; rw [if_pos rfl])]
  rw [shapeCast_apply _ shapeCasts_S32x32x8_S32x32x8x1 (ix4 tt g m (0 : Fin 1)) (ix3 tt g m)
    (by rewrite [Shape.rowMajor_val_three, Shape.rowMajor_val_four]
        show (tt.val * 32 + g.val) * 8 + m.val = ((tt.val * 32 + g.val) * 8 + m.val) * 1 + 0; omega)]
  rfl

/-- The low code of a word as the body computes it. -/
theorem low_at (v0 : IVec S32x32x8x64 32) (i : S32x32x8x64.Idx) :
    (subf (sitofp (F := Ideal) .bf16 (andi (andi v0 (broadcast S32x32x8x64 255#32)) (broadcast S32x32x8x64 15#32)))
        (broadcast S32x32x8x64 (Scalar.ofBits (F := Ideal) .bf16 0x4100#16))) i
      = lowCode (v0 i) := by
  show ((((IntOp.andi (IntOp.andi (v0 i) 255#32) 15#32).toInt : ℝ)) : EReal) - Ideal.ofBits .bf16 0x4100#16 = _
  exact kernel_low (v0 i)

/-- The high code of a word as the body computes it. -/
theorem high_at (v0 : IVec S32x32x8x64 32) (i : S32x32x8x64.Idx) :
    (subf (sitofp (F := Ideal) .bf16 (andi (shrsi (andi v0 (broadcast S32x32x8x64 255#32)) (broadcast S32x32x8x64 4#32))
          (broadcast S32x32x8x64 15#32)))
        (broadcast S32x32x8x64 (Scalar.ofBits (F := Ideal) .bf16 0x4100#16))) i
      = highCode (v0 i) := by
  show ((((IntOp.andi (IntOp.shrsi .vector (IntOp.andi (v0 i) 255#32) 4#32) 15#32).toInt : ℝ)) : EReal)
      - Ideal.ofBits .bf16 0x4100#16 = _
  exact kernel_high (v0 i)

/-! ## The stored entry -/

/-- Entry (b, col) of what the body stores: the even features against the low codes plus the odd features against
    the high codes, each code times its scale. -/
theorem payload_at (v0 : Vec Ideal S32x32x8x64 .i32) (v1 : Vec Ideal S32x32x8 .f32)
    (v27 : Vec Ideal S8x2048 .bf16) (v29 : Vec Ideal S8x2048 .bf16) (b : Fin 8) (col : Fin 256) :
    k0_pay1 (F := Ideal) v0 v1 v27 v29 (ix2 b col)
      = ∑ k : Fin 2048, v27 (ix2 b k)
          * (lowCode (v0 (ix4 (blkTile col) (pairGroup k) (blkRow col) (pairWord k)))
              * v1 (ix3 (blkTile col) (pairGroup k) (blkRow col)))
        + ∑ k : Fin 2048, v29 (ix2 b k)
          * (highCode (v0 (ix4 (blkTile col) (pairGroup k) (blkRow col) (pairWord k)))
              * v1 (ix3 (blkTile col) (pairGroup k) (blkRow col))) := by
  unfold k0_pay1
  dsimp only
  rw [addf_apply, dot_at, dot_at]
  refine congrArg₂ (· + ·) (Finset.sum_congr rfl fun k _ => ?_) (Finset.sum_congr rfl fun k _ => ?_)
  · rw [shapeCast_self, relaid_at, mulf_apply, scale_at, low_at]
  · rw [shapeCast_self, relaid_at, mulf_apply, scale_at, high_at]

end Cert.KernelIdeal.Payload

end
-- ==== Proof.KernelHost.lean ====
/-
  The even and the odd features, as the region finds them.

  Before the kernel runs, the host views `x[b, j]` as `x[b, g, h, e]` with `j = 128 g + 2 h + e`, takes the slice
  `e = 0` (the even features) and the slice `e = 1` (the odd ones), and flattens each to `[b, 64 g + h]`; the change
  of float format is the identity on the extended reals. So entry (b, k) of the even array is `x[b, 2k]` and entry
  (b, k) of the odd array is `x[b, 2k + 1]`.
-/
import proofs.«400681_j67843303408008_3_alg».proof.Proof.Gen.KernelIdeal.Frame
import proofs.«400681_j67843303408008_3_alg».proof.Proof.Spec
import Idealize.ShloMosaic.Lib.Pipeline.Value
import Idealize.ShloMosaic.Lib.ValueIdx
import Idealize.ShloMosaic.Lib.StableHlo.Run

noncomputable section

namespace Cert.KernelIdeal.Host

open Cert.KernelIdeal Cert.KernelIdeal.Gen Idealize.ShloMosaic Idealize.ShloMosaic.TcCoe Idealize.SL.Sem
open Idealize.ShloMosaic.ValueIdx Idealize.ShloMosaic.StableHlo Cert.Spec

/-- The even slice, flattened: entry (b, k) is `x[b, 2k]`. -/
theorem even_slice_at (x : FVec Ideal S8x4096 .f32) (b : Fin 8) (k : Fin 2048) :
    truncf .bf16 (shapeCast S8x2048 (shapeCast S8x32x64
        (extractStridedSlice S8x32x64x1 ![0, 0, 0, 0] (shapeCast S8x32x64x2 x shapeCasts_S8x4096_S8x32x64x2)
          slices_S8x32x64x2_S8x32x64x1_0_0_0_0)
        shapeCasts_S8x32x64x1_S8x32x64) shapeCasts_S8x32x64_S8x2048) bitsLt_bf16_f32 (ix2 b k)
      = x (ix2 b (evenOf k)) := by
  have hb := b.isLt; have hk := k.isLt
  rw [truncf_apply]
  rw [shapeCast_apply _ shapeCasts_S8x32x64_S8x2048 (ix2 b k) (ix3 b (pairGroup k) (pairWord k))
    (by rewrite [Shape.rowMajor_val_three, Shape.rowMajor_val_two]
        show (b.val * 32 + k.val / 64) * 64 + k.val % 64 = b.val * 2048 + k.val; omega)]
  rw [shapeCast_apply _ shapeCasts_S8x32x64x1_S8x32x64 (ix3 b (pairGroup k) (pairWord k))
    (ix4 b (pairGroup k) (pairWord k) (0 : Fin 1))
    (by rewrite [Shape.rowMajor_val_four, Shape.rowMajor_val_three]
        show ((b.val * 32 + k.val / 64) * 64 + k.val % 64) * 1 + 0 = (b.val * 32 + k.val / 64) * 64 + k.val % 64; omega)]
  rw [extractStridedSlice_apply ![0, 0, 0, 0] _ slices_S8x32x64x2_S8x32x64x1_0_0_0_0
    (ix4 b (pairGroup k) (pairWord k) (0 : Fin 1)) (ix4 b (pairGroup k) (pairWord k) (0 : Fin 2)) (fun a => by
      match a with
      | ⟨0, _⟩ => show b.val = 0 + b.val; omega
      | ⟨1, _⟩ => show k.val / 64 = 0 + k.val / 64; omega
      | ⟨2, _⟩ => show k.val % 64 = 0 + k.val % 64; omega
      | ⟨3, _⟩ => show 0 = 0 + 0; omega)]
  exact shapeCast_apply x shapeCasts_S8x4096_S8x32x64x2 (ix4 b (pairGroup k) (pairWord k) (0 : Fin 2)) (ix2 b (evenOf k))
    (by rewrite [Shape.rowMajor_val_two, Shape.rowMajor_val_four]
        show b.val * 4096 + k.val * 2 = ((b.val * 32 + k.val / 64) * 64 + k.val % 64) * 2 + 0; omega)

/-- The odd slice, flattened: entry (b, k) is `x[b, 2k + 1]`. -/
theorem odd_slice_at (x : FVec Ideal S8x4096 .f32) (b : Fin 8) (k : Fin 2048) :
    truncf .bf16 (shapeCast S8x2048 (shapeCast S8x32x64
        (extractStridedSlice S8x32x64x1 ![0, 0, 0, 1] (shapeCast S8x32x64x2 x shapeCasts_S8x4096_S8x32x64x2)
          slices_S8x32x64x2_S8x32x64x1_0_0_0_1)
        shapeCasts_S8x32x64x1_S8x32x64) shapeCasts_S8x32x64_S8x2048) bitsLt_bf16_f32 (ix2 b k)
      = x (ix2 b (oddOf k)) := by
  have hb := b.isLt; have hk := k.isLt
  rw [truncf_apply]
  rw [shapeCast_apply _ shapeCasts_S8x32x64_S8x2048 (ix2 b k) (ix3 b (pairGroup k) (pairWord k))
    (by rewrite [Shape.rowMajor_val_three, Shape.rowMajor_val_two]
        show (b.val * 32 + k.val / 64) * 64 + k.val % 64 = b.val * 2048 + k.val; omega)]
  rw [shapeCast_apply _ shapeCasts_S8x32x64x1_S8x32x64 (ix3 b (pairGroup k) (pairWord k))
    (ix4 b (pairGroup k) (pairWord k) (0 : Fin 1))
    (by rewrite [Shape.rowMajor_val_four, Shape.rowMajor_val_three]
        show ((b.val * 32 + k.val / 64) * 64 + k.val % 64) * 1 + 0 = (b.val * 32 + k.val / 64) * 64 + k.val % 64; omega)]
  rw [extractStridedSlice_apply ![0, 0, 0, 1] _ slices_S8x32x64x2_S8x32x64x1_0_0_0_1
    (ix4 b (pairGroup k) (pairWord k) (0 : Fin 1)) (ix4 b (pairGroup k) (pairWord k) (1 : Fin 2)) (fun a => by
      match a with
      | ⟨0, _⟩ => show b.val = 0 + b.val; omega
      | ⟨1, _⟩ => show k.val / 64 = 0 + k.val / 64; omega
      | ⟨2, _⟩ => show k.val % 64 = 0 + k.val % 64; omega
      | ⟨3, _⟩ => show 1 = 1 + 0; omega)]
  exact shapeCast_apply x shapeCasts_S8x4096_S8x32x64x2 (ix4 b (pairGroup k) (pairWord k) (1 : Fin 2)) (ix2 b (oddOf k))
    (by rewrite [Shape.rowMajor_val_two, Shape.rowMajor_val_four]
        show b.val * 4096 + (k.val * 2 + 1) = ((b.val * 32 + k.val / 64) * 64 + k.val % 64) * 2 + 1; omega)

variable (m : (ℓ : Loc nD τ sig) → Buf (Elt Ideal) ℓ)

/-- The even-feature operand as the region finds it. -/
theorem evens_at (c : Dev nD) (b : Fin 8) (k : Fin 2048) :
    (V m c main_v4 : S8x2048.Idx → EReal) (ix2 b k)
      = (m ((c : Thread nD τ).loc main_arg0) : S8x4096.Idx → EReal) (ix2 b (evenOf k)) := by
  have e : @Eq (S8x2048.Idx → EReal) (V m c main_v4)
      (truncf (F := Ideal) .bf16 (shapeCast S8x2048 (shapeCast S8x32x64
          (extractStridedSlice S8x32x64x1 ![0, 0, 0, 0]
            (shapeCast S8x32x64x2 (m ((c : Thread nD τ).loc main_arg0) : S8x4096.Idx → EReal) shapeCasts_S8x4096_S8x32x64x2)
            slices_S8x32x64x2_S8x32x64x1_0_0_0_0)
          shapeCasts_S8x32x64x1_S8x32x64) shapeCasts_S8x32x64_S8x2048) bitsLt_bf16_f32) := by
    dsimp only [V, hostOps0]; after_results; rfl
  rw [e]
  exact even_slice_at _ b k

/-- The odd-feature operand as the region finds it. -/
theorem odds_at (c : Dev nD) (b : Fin 8) (k : Fin 2048) :
    (V m c main_v8 : S8x2048.Idx → EReal) (ix2 b k)
      = (m ((c : Thread nD τ).loc main_arg0) : S8x4096.Idx → EReal) (ix2 b (oddOf k)) := by
  have e : @Eq (S8x2048.Idx → EReal) (V m c main_v8)
      (truncf (F := Ideal) .bf16 (shapeCast S8x2048 (shapeCast S8x32x64
          (extractStridedSlice S8x32x64x1 ![0, 0, 0, 1]
            (shapeCast S8x32x64x2 (m ((c : Thread nD τ).loc main_arg0) : S8x4096.Idx → EReal) shapeCasts_S8x4096_S8x32x64x2)
            slices_S8x32x64x2_S8x32x64x1_0_0_0_1)
          shapeCasts_S8x32x64x1_S8x32x64) shapeCasts_S8x32x64_S8x2048) bitsLt_bf16_f32) := by
    dsimp only [V, hostOps0]; after_results; rfl
  rw [e]
  exact odd_slice_at _ b k

end Cert.KernelIdeal.Host

end
-- ==== Proof.KernelArray.lean ====
/-
  From what each grid point writes back to the whole result array.

  Grid point `t` (of 43) reads tiles `32 t … 32 t + 31` of the packed words and of the scales, the whole even and odd
  feature arrays, and writes columns `256 t … 256 t + 255` of the result. Its stored entry (b, col) is the body's sum
  over the even and the odd features at tile `32 t + col / 8`, row `col % 8`; output column `n = 256 t + col` has tile
  `n / 8 = 32 t + col / 8` and row `n % 8 = col % 8`, so the stored entry is the specified result at (b, n), split
  into its even and odd features. Column `n` lies in point `n / 256`'s block, so the 43 blocks cover the array, and the
  array ends holding the specified result everywhere.
-/
import proofs.«400681_j67843303408008_3_alg».proof.Proof.Gen.KernelIdeal.Value
import proofs.«400681_j67843303408008_3_alg».proof.Proof.KernelPayload
import proofs.«400681_j67843303408008_3_alg».proof.Proof.KernelHost
import Idealize.ShloMosaic.Lib.Pipeline.Value

open scoped BigOperators

noncomputable section

namespace Cert.KernelIdeal.Whole

open Cert.KernelIdeal Cert.KernelIdeal.Gen Cert.KernelIdeal.Value Cert.KernelIdeal.Payload Cert.KernelIdeal.Host
open Idealize.ShloMosaic Idealize.ShloMosaic.TcCoe Idealize.SL.Sem Idealize.ShloMosaic.ValueIdx
open Idealize.ShloMosaic.Pipeline (Dat)
open Cert.Spec Cert.Nibbles

variable (m : (ℓ : Loc nD τ sig) → Buf (Elt Ideal) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- The printed index maps over the grid: the feature windows stay at block 0; the word and scale windows move along
    the tile axis with the point; the result window moves along the column axis with the point. -/
theorem index_facts : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 4) = t.val ∧ win0_2.index t (1 : Fin 4) = 0
    ∧ win0_2.index t (2 : Fin 4) = 0 ∧ win0_2.index t (3 : Fin 4) = 0
    ∧ win0_3.index t (0 : Fin 3) = t.val ∧ win0_3.index t (1 : Fin 3) = 0 ∧ win0_3.index t (2 : Fin 3) = 0
    ∧ win0_4.index t (0 : Fin 2) = 0 ∧ win0_4.index t (1 : Fin 2) = t.val :=
  (by decide +kernel : ∀ t : Fin grid0.N, _)

theorem point_lt (t : Fin cfg0.N) : t.val < 43 :=
  lt_of_lt_of_eq t.isLt (show cfg0.N = 43 from N_0)

/-- The output column and the tile a point's block column and block tile stand for. -/
def outCol (t : Fin cfg0.N) (col : Fin 256) : Fin 11008 :=
  ⟨t.val * 256 + col.val, by have := point_lt t; have := col.isLt; omega⟩
def outTile (t : Fin cfg0.N) (tt : Fin 32) : Fin 1376 :=
  ⟨t.val * 32 + tt.val, by have := point_lt t; have := tt.isLt; omega⟩

theorem tileOf_outCol (t : Fin cfg0.N) (col : Fin 256) : tileOf (outCol t col) = outTile t (blkTile col) :=
  Fin.ext (by show (t.val * 256 + col.val) / 8 = t.val * 32 + col.val / 8; omega)
theorem rowOf_outCol (t : Fin cfg0.N) (col : Fin 256) : rowOf (outCol t col) = blkRow col :=
  Fin.ext (by show (t.val * 256 + col.val) % 8 = col.val % 8; omega)

/-! ## Each window's block at a point, read off the arguments -/

/-- The result window's block: entry (b, col) of point `t`'s block is entry (b, 256 t + col) of the array. -/
theorem emb_out (t : Fin cfg0.N) (b : Fin 8) (col : Fin 256) :
    ((cfg0.win 4).blk t).view.emb (ix2 b col) = ix2 b (outCol t col) := by
  obtain ⟨-, -, -, -, -, -, -, -, -, -, -, e0, e1⟩ := index_facts t
  funext a; apply Fin.ext
  match a with
  | ⟨0, _⟩ => show win0_4.index t (0 : Fin 2) * 8 + 1 * b.val = b.val; omega
  | ⟨1, _⟩ => show win0_4.index t (1 : Fin 2) * 256 + 1 * col.val = t.val * 256 + col.val; omega

/-- The even features' block is the whole even array: entry (b, k) is `x[b, 2k]`. -/
theorem even_block (c : Dev nD) (t : Fin cfg0.N) (b : Fin 8) (k : Fin 2048) :
    (iblk m c 0 t : Vec Ideal S8x2048 .bf16) (ix2 b k)
      = (m ((c : Thread nD τ).loc main_arg0) : S8x4096.Idx → EReal) (ix2 b (evenOf k)) := by
  obtain ⟨e0, e1, -⟩ := index_facts t
  show (V m c main_v4 : S8x2048.Idx → EReal) (((cfg0.win 0).blk t).view.emb (ix2 b k)) = _
  have h : ((cfg0.win 0).blk t).view.emb (ix2 b k) = ix2 b k := by
    funext a; apply Fin.ext
    match a with
    | ⟨0, _⟩ => show win0_0.index t (0 : Fin 2) * 8 + 1 * b.val = b.val; omega
    | ⟨1, _⟩ => show win0_0.index t (1 : Fin 2) * 2048 + 1 * k.val = k.val; omega
  rw [h]
  exact evens_at m c b k

/-- The odd features' block is the whole odd array: entry (b, k) is `x[b, 2k + 1]`. -/
theorem odd_block (c : Dev nD) (t : Fin cfg0.N) (b : Fin 8) (k : Fin 2048) :
    (iblk m c 1 t : Vec Ideal S8x2048 .bf16) (ix2 b k)
      = (m ((c : Thread nD τ).loc main_arg0) : S8x4096.Idx → EReal) (ix2 b (oddOf k)) := by
  obtain ⟨-, -, e0, e1, -⟩ := index_facts t
  show (V m c main_v8 : S8x2048.Idx → EReal) (((cfg0.win 1).blk t).view.emb (ix2 b k)) = _
  have h : ((cfg0.win 1).blk t).view.emb (ix2 b k) = ix2 b k := by
    funext a; apply Fin.ext
    match a with
    | ⟨0, _⟩ => show win0_1.index t (0 : Fin 2) * 8 + 1 * b.val = b.val; omega
    | ⟨1, _⟩ => show win0_1.index t (1 : Fin 2) * 2048 + 1 * k.val = k.val; omega
  rw [h]
  exact odds_at m c b k

/-- The packed words' block: tile `tt` of point `t`'s block is tile `32 t + tt` of the argument. -/
theorem word_block (c : Dev nD) (t : Fin cfg0.N) (tt : Fin 32) (g : Fin 32) (r : Fin 8) (h : Fin 64) :
    (iblk m c 2 t : Vec Ideal S32x32x8x64 .i32) (ix4 tt g r h)
      = (m ((c : Thread nD τ).loc main_arg1) : S1376x32x8x64.Idx → BitVec 32) (ix4 (outTile t tt) g r h) := by
  obtain ⟨-, -, -, -, e0, e1, e2, e3, -⟩ := index_facts t
  show (V m c main_arg1 : S1376x32x8x64.Idx → BitVec 32) (((cfg0.win 2).blk t).view.emb (ix4 tt g r h)) = _
  rw [V_main_arg1]
  refine congrArg _ ?_
  funext a; apply Fin.ext
  match a with
  | ⟨0, _⟩ => show win0_2.index t (0 : Fin 4) * 32 + 1 * tt.val = t.val * 32 + tt.val; omega
  | ⟨1, _⟩ => show win0_2.index t (1 : Fin 4) * 32 + 1 * g.val = g.val; omega
  | ⟨2, _⟩ => show win0_2.index t (2 : Fin 4) * 8 + 1 * r.val = r.val; omega
  | ⟨3, _⟩ => show win0_2.index t (3 : Fin 4) * 64 + 1 * h.val = h.val; omega

/-- The scales' block: tile `tt` of point `t`'s block is tile `32 t + tt` of the argument. -/
theorem scale_block (c : Dev nD) (t : Fin cfg0.N) (tt : Fin 32) (g : Fin 32) (r : Fin 8) :
    (iblk m c 3 t : Vec Ideal S32x32x8 .f32) (ix3 tt g r)
      = (m ((c : Thread nD τ).loc main_arg2) : S1376x32x8.Idx → EReal) (ix3 (outTile t tt) g r) := by
  obtain ⟨-, -, -, -, -, -, -, -, e0, e1, e2, -⟩ := index_facts t
  show (V m c main_arg2 : S1376x32x8.Idx → EReal) (((cfg0.win 3).blk t).view.emb (ix3 tt g r)) = _
  rw [V_main_arg2]
  refine congrArg _ ?_
  funext a; apply Fin.ext
  match a with
  | ⟨0, _⟩ => show win0_3.index t (0 : Fin 3) * 32 + 1 * tt.val = t.val * 32 + tt.val; omega
  | ⟨1, _⟩ => show win0_3.index t (1 : Fin 3) * 32 + 1 * g.val = g.val; omega
  | ⟨2, _⟩ => show win0_3.index t (2 : Fin 3) * 8 + 1 * r.val = r.val; omega

/-! ## What a point writes back, and the whole array -/

/-- The result array the specification gives, of the arguments as launched. -/
abbrev result (c : Dev nD) : S8x11008.Idx → EReal :=
  G (m ((c : Thread nD τ).loc main_arg0)) (m ((c : Thread nD τ).loc main_arg1)) (m ((c : Thread nD τ).loc main_arg2))

/-- What point `t` writes back is its block of the specified result. -/
theorem flushed_eq (c : Dev nD) (t : Fin cfg0.N) :
    (dats m 0 c).flushed 4 t = ((cfg0.win 4).blk t).view.read (Elt Ideal) (result m c) := by
  rw [flushed4]
  unfold out0_4
  rw [View.canon_unit_zero hz2]
  simp only [View.ld_unit_zero (S := S32x32x8x64) hz4, View.ld_unit_zero (S := S32x32x8) hz3,
    View.ld_unit_zero (S := S8x2048) hz2]
  funext j
  obtain ⟨b, col, rfl⟩ : ∃ (b : Fin 8) (col : Fin 256), j = ix2 b col := ⟨j 0, j 1, eq_ix2 j⟩
  show k0_pay1 (F := Ideal) (iblk m c 2 t) (iblk m c 3 t) (iblk m c 0 t) (iblk m c 1 t) (ix2 b col)
    = result m c (((cfg0.win 4).blk t).view.emb (ix2 b col))
  rw [emb_out]
  refine (payload_at (iblk m c 2 t) (iblk m c 3 t) (iblk m c 0 t) (iblk m c 1 t) b col).trans ?_
  show _ = entry _ _ _ b (outCol t col)
  rw [entry_split, tileOf_outCol, rowOf_outCol]
  refine congrArg₂ (· + ·) (Finset.sum_congr rfl fun k _ => ?_) (Finset.sum_congr rfl fun k _ => ?_)
  · rw [even_block, word_block, scale_block]
  · rw [odd_block, word_block, scale_block]

/-- Every index of the result array lies in the block of the point its column belongs to. -/
theorem cover (i : S8x11008.Idx) :
    ∃ t : Fin cfg0.N, (cfg0.win 4).flush t = true ∧ i ∈ ((cfg0.win 4).blk t).view.set := by
  have h0 : (i 0).val < 8 := (i 0).isLt
  have h1 : (i 1).val < 11008 := (i 1).isLt
  let t : Fin cfg0.N := ⟨(i 1).val / 256, lt_of_lt_of_eq (show (i 1).val / 256 < 43 by omega) (show cfg0.N = 43 from N_0).symm⟩
  refine ⟨t, flush0_4 t, ?_⟩
  obtain ⟨-, -, -, -, -, -, -, -, -, -, -, e0, e1⟩ := index_facts t
  have ht : t.val = (i 1).val / 256 := rfl
  show i ∈ ((View.whole main_v9).slice (win0_4.rect t)).set
  rw [View.set_slice_whole, Rect.mem_set_unit]
  intro a
  match a with
  | ⟨0, _⟩ =>
    show win0_4.index t (0 : Fin 2) * 8 ≤ (i 0).val ∧ (i 0).val < win0_4.index t (0 : Fin 2) * 8 + 8
    omega
  | ⟨1, _⟩ =>
    show win0_4.index t (1 : Fin 2) * 256 ≤ (i 1).val ∧ (i 1).val < win0_4.index t (1 : Fin 2) * 256 + 256
    omega

/-- The result array after the run is the specified result. -/
theorem final (c : Dev nD) : (dats m 0 c).arrAt 4 cfg0.N = result m c :=
  (dats m 0 c).arrAt_eq_of_cover 4 (result m c) (fun t _ => flushed_eq m c t) cover

/-- The run: the result array at the specified function of the arguments, the arguments unchanged. -/
theorem run : θ_run defs (onTc (τ := τ) (main (F := Ideal))) ⟨m, fun _ => 0, ρ⟩ fun r => ∀ c : Dev nD,
      r.2.mem ((c : Thread nD τ).loc main_v9) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (run_blocks m ρ)

end Cert.KernelIdeal.Whole

end
-- ==== Proof.lean ====
/-
  A 4-bit group-quantised matrix product, the kernel against its reference, over the extended reals.

  Both programs compute `out[b, n] = sum over the 4096 input features j of x[b, j] * W[n, j]`, where `W[n, j]` is a
  recentred 4-bit code times a per-group scale: output column `n` is (tile `n / 8`, row `n % 8`), feature `j` is
  (group `j / 128`, place `j % 128`), the packed word is number `(j % 128) / 2` of the group, an even place reads
  its low code `(w mod 16) - 8` and an odd place its high code `((w >> 4) mod 16) - 8`, and the scale is that of
  (tile, group, row).

  The reference builds `W` whole on the host and contracts once over the 4096 features. The kernel splits `x` into its
  even and odd features before the launch, and at each of 43 grid points handles 32 tiles: it keeps the low byte of
  each word before taking the codes (which changes neither code), converts a code to a float before recentring it
  (exact on the extended reals, where the float 8 is the real 8 and a change of float format is the identity),
  contracts the even features with the low codes and the odd features with the high codes over 2048 places each, and
  adds the two products. The two sides differ only in how one finite sum is grouped — 4096 terms against 2048 even
  plus 2048 odd ones — which holds in any commutative monoid, so no finiteness of the inputs is used.

  The modules: `Nibbles` (the two codes, at the word level and at the extended reals), `Spec` (the result as one
  function `G` of the arguments, and its even/odd split), `RefValue` (the reference's result is `G`),
  `KernelPayload` (the entry a grid point stores), `KernelHost` (the even and odd feature arrays), `KernelArray`
  (the grid points' blocks make up `G`), and the claims below.
-/
import proofs.«400681_j67843303408008_3_alg».proof.Defs
import proofs.«400681_j67843303408008_3_alg».proof.Proof.Gen.Kernel
import proofs.«400681_j67843303408008_3_alg».proof.Proof.Gen.Kernel.Skeleton
import proofs.«400681_j67843303408008_3_alg».proof.Proof.Gen.Kernel.Launch
import proofs.«400681_j67843303408008_3_alg».proof.Proof.Gen.Kernel.Points
import proofs.«400681_j67843303408008_3_alg».proof.Proof.Gen.Kernel.Frame
import proofs.«400681_j67843303408008_3_alg».proof.Proof.Gen.KernelIdeal
import proofs.«400681_j67843303408008_3_alg».proof.Proof.Gen.KernelIdeal.Skeleton
import proofs.«400681_j67843303408008_3_alg».proof.Proof.Gen.KernelIdeal.Launch
import proofs.«400681_j67843303408008_3_alg».proof.Proof.Gen.KernelIdeal.Points
import proofs.«400681_j67843303408008_3_alg».proof.Proof.Gen.KernelIdeal.Frame
import proofs.«400681_j67843303408008_3_alg».proof.Proof.Gen.ReferenceIdeal
import proofs.«400681_j67843303408008_3_alg».proof.Proof.Gen.Pre_finite_inputs
import proofs.«400681_j67843303408008_3_alg».proof.Proof.Gen.KernelIdeal.Value
import proofs.«400681_j67843303408008_3_alg».proof.Proof.Gen.ReferenceIdeal.Run
import proofs.«400681_j67843303408008_3_alg».proof.Proof.Gen.ReferenceIdeal.Read
import proofs.«400681_j67843303408008_3_alg».proof.Proof.RefValue
import proofs.«400681_j67843303408008_3_alg».proof.Proof.KernelArray
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_kernel : Cert.frame_Kernel := fun m ρ _ => Cert.Kernel.Gen.frame m ρ

/-- So does the idealized kernel. -/
theorem frame_kernel_ideal : Cert.frame_KernelIdeal := fun m ρ _ => Cert.KernelIdeal.Gen.frame m ρ

/-- The reference is a straight line of host operations: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Both idealized programs end with the result array at the specified function `G` of the arguments: the kernel
    block by block over its 43 grid points, the reference by reading its operations one at a time. -/
theorem algebraic : Cert.algebraic_KernelIdeal_ReferenceIdeal := by
  intro m ρ m' ρ' _ hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v22_eq, Cert.ReferenceIdeal.RefValue.result_eq,
    (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
